-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S16384x128 : Shape := ⟨2, ![16384, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : FVec F S4096x128 .f32) (main_arg1 : FVec F S16384x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  main_v8
-- ==== Kernel.lean ====
abbrev S4096x128 : Shape := ⟨2, ![4096, 128]⟩
abbrev S16384x128 : Shape := ⟨2, ![16384, 128]⟩
abbrev S4096x1 : Shape := ⟨2, ![4096, 1]⟩
abbrev S1024x128 : Shape := ⟨2, ![1024, 128]⟩
abbrev S1024x1 : Shape := ⟨2, ![1024, 1]⟩
abbrev S1024 : Shape := ⟨1, ![1024]⟩
abbrev S16384x1 : Shape := ⟨2, ![16384, 1]⟩
abbrev S2048x128 : Shape := ⟨2, ![2048, 128]⟩
abbrev S2048x1 : Shape := ⟨2, ![2048, 1]⟩
abbrev S2048 : Shape := ⟨1, ![2048]⟩
abbrev S1x16384 : Shape := ⟨2, ![1, 16384]⟩
abbrev S4096x16384 : Shape := ⟨2, ![4096, 16384]⟩
abbrev S1x1024 : Shape := ⟨2, ![1, 1024]⟩
abbrev S1024x1024 : Shape := ⟨2, ![1024, 1024]⟩

abbrev nBuf : Space → Nat
  | .hbm => 8
  | .vmem => 22
  | .smem => 0
  | _ => 0

abbrev bufTy : (tb : Table) → Fin (tcTables nBuf tb) → BufTy
  | .hbm, ⟨0, _⟩ => ⟨S4096x128, .f32⟩
  | .hbm, ⟨1, _⟩ => ⟨S16384x128, .f32⟩
  | .hbm, ⟨2, _⟩ => ⟨S4096x128, .bf16⟩
  | .hbm, ⟨3, _⟩ => ⟨S4096x1, .f32⟩
  | .hbm, ⟨4, _⟩ => ⟨S16384x128, .bf16⟩
  | .hbm, ⟨5, _⟩ => ⟨S16384x1, .f32⟩
  | .hbm, ⟨6, _⟩ => ⟨S1x16384, .f32⟩
  | .hbm, ⟨7, _⟩ => ⟨S4096x16384, .f32⟩
  | .local _ .vmem, ⟨0, _⟩ => ⟨S1024x128, .f32⟩
  | .local _ .vmem, ⟨1, _⟩ => ⟨S1024x128, .f32⟩
  | .local _ .vmem, ⟨2, _⟩ => ⟨S1024x128, .bf16⟩
  | .local _ .vmem, ⟨3, _⟩ => ⟨S1024x128, .bf16⟩
  | .local _ .vmem, ⟨4, _⟩ => ⟨S1024x1, .f32⟩
  | .local _ .vmem, ⟨5, _⟩ => ⟨S1024x1, .f32⟩
  | .local _ .vmem, ⟨6, _⟩ => ⟨S2048x128, .f32⟩
  | .local _ .vmem, ⟨7, _⟩ => ⟨S2048x128, .f32⟩
  | .local _ .vmem, ⟨8, _⟩ => ⟨S2048x128, .bf16⟩
  | .local _ .vmem, ⟨9, _⟩ => ⟨S2048x128, .bf16⟩
  | .local _ .vmem, ⟨10, _⟩ => ⟨S2048x1, .f32⟩
  | .local _ .vmem, ⟨11, _⟩ => ⟨S2048x1, .f32⟩
  | .local _ .vmem, ⟨12, _⟩ => ⟨S1024x128, .bf16⟩
  | .local _ .vmem, ⟨13, _⟩ => ⟨S1024x128, .bf16⟩
  | .local _ .vmem, ⟨14, _⟩ => ⟨S1024x1, .f32⟩
  | .local _ .vmem, ⟨15, _⟩ => ⟨S1024x1, .f32⟩
  | .local _ .vmem, ⟨16, _⟩ => ⟨S1024x128, .bf16⟩
  | .local _ .vmem, ⟨17, _⟩ => ⟨S1024x128, .bf16⟩
  | .local _ .vmem, ⟨18, _⟩ => ⟨S1x1024, .f32⟩
  | .local _ .vmem, ⟨19, _⟩ => ⟨S1x1024, .f32⟩
  | .local _ .vmem, ⟨20, _⟩ => ⟨S1024x1024, .f32⟩
  | .local _ .vmem, ⟨21, _⟩ => ⟨S1024x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  bitsLt_bf16_f32 : FTy.bits .bf16 < FTy.bits .f32
  packedbf16_S1024x128_S1024x128_0_0 : (Rect.unit (s := S1024x128) ![0, 0] S1024x128.size inb_S1024x128_S1024x128_0_0).PackedRows (EltTy.packing .bf16)
  inb_S1024x1_S1024x1_0_0 : ∀ a, (![0, 0] : Fin 2 → Nat) a + S1024x1.size a ≤ S1024x1.size a
  h_S1024x1 : 0 < S1024x1.numel
  inb_S2048x128_S2048x128_0_0 : ∀ a, (![0, 0] : Fin 2 → Nat) a + S2048x128.size a ≤ S2048x128.size a
  h_S2048x128 : 0 < S2048x128.numel
  reduces_S2048x128_S2048 : S2048x128.Reduces [1] S2048
  shapeCasts_S2048_S2048x1 : S2048.ShapeCasts S2048x1
  broadcasts_S2048x1_S2048x128 : S2048x1.Broadcasts S2048x128
  packedbf16_S2048x128_S2048x128_0_0 : (Rect.unit (s := S2048x128) ![0, 0] S2048x128.size inb_S2048x128_S2048x128_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S16384x1_S1x16384 : S16384x1.ShapeCasts S1x16384
  shapeCasts_S1024x128_S1024x128 : S1024x128.ShapeCasts S1024x128
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .bf16 = 32 ∨ (Rect.block (s := S4096x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S16384x128.size a
  hwx1_1 : ∀ i : grid1.Coords, EltTy.bits .bf16 = 32 ∨ (Rect.block (s := S16384x128) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S16384x1.size a
  hwx1_2 : ∀ i : grid1.Coords, EltTy.bits .f32 = 32 ∨ (Rect.block (s := S16384x1) S2048x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S4096x128.size a
  hwx2_0 : ∀ i : grid2.Coords, EltTy.bits .bf16 = 32 ∨ (Rect.block (s := S4096x128) S1024x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S4096x1.size a
  hwx2_1 : ∀ i : grid2.Coords, EltTy.bits .f32 = 32 ∨ (Rect.block (s := S4096x1) S1024x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S16384x128.size a
  hwx2_2 : ∀ i : grid2.Coords, EltTy.bits .bf16 = 32 ∨ (Rect.block (s := S16384x128) S1024x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x16384.size a
  hwx2_3 : ∀ i : grid2.Coords, EltTy.bits .f32 = 32 ∨ (Rect.block (s := S1x16384) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S4096x16384.size a
  hwx2_4 : ∀ i : grid2.Coords, EltTy.bits .f32 = 32 ∨ (Rect.block (s := S4096x16384) S1024x1024.size (cc2_transform_4 i) (hinb2_4 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1024x128.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S2048x128.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S2048x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0_0) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_1) S1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1_0) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1024x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4096x128 : Shape := ⟨2, ![4096, 128]⟩
abbrev S16384x128 : Shape := ⟨2, ![16384, 128]⟩
abbrev S_ : Shape := ⟨0, ![]⟩
abbrev S4096 : Shape := ⟨1, ![4096]⟩
abbrev S4096x1 : Shape := ⟨2, ![4096, 1]⟩
abbrev S16384 : Shape := ⟨1, ![16384]⟩
abbrev S16384x1 : Shape := ⟨2, ![16384, 1]⟩
abbrev S4096x16384 : Shape := ⟨2, ![4096, 16384]⟩
abbrev S1x16384 : Shape := ⟨2, ![1, 16384]⟩

abbrev nBuf : Space → Nat
  | .hbm => 44
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S16384x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x128, .f32⟩
  | .hbm, ⟨8, _⟩ => ⟨S4096x128, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x128, .f32⟩
  | .hbm, ⟨14, _⟩ => ⟨S4096x128, .f32⟩
  | .hbm, ⟨15, _⟩ => ⟨S16384x128, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x128, .f32⟩
  | .hbm, ⟨21, _⟩ => ⟨S16384x128, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x128, .f32⟩
  | .hbm, ⟨27, _⟩ => ⟨S16384x128, .f32⟩
  | .hbm, ⟨28, _⟩ => ⟨S4096x128, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S16384x128, .f32⟩
  | .hbm, ⟨33, _⟩ => ⟨S_, .f32⟩
  | .hbm, ⟨34, _⟩ => ⟨S16384, .f32⟩
  | .hbm, ⟨35, _⟩ => ⟨S4096x16384, .f32⟩
  | .hbm, ⟨36, _⟩ => ⟨S1x16384, .f32⟩
  | .hbm, ⟨37, _⟩ => ⟨S4096x16384, .f32⟩
  | .hbm, ⟨38, _⟩ => ⟨S4096x16384, .f32⟩
  | .hbm, ⟨39, _⟩ => ⟨S4096x16384, .f32⟩
  | .hbm, ⟨40, _⟩ => ⟨S_, .f32⟩
  | .hbm, ⟨41, _⟩ => ⟨S4096x16384, .f32⟩
  | .hbm, ⟨42, _⟩ => ⟨S4096x16384, .f32⟩
  | .hbm, ⟨43, _⟩ => ⟨S4096x16384, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x128 : S_.BroadcastsInDim S4096x128 (![] : Fin 0 → Fin S4096x128.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  reducesTo_S16384x128_S16384_d1 : S16384x128.ReducesTo [1] S16384
  bcast_S16384_S16384x1_0 : S16384.BroadcastsInDim S16384x1 (![0] : Fin 1 → Fin S16384x1.rank)
  bcast_S_S16384x128 : S_.BroadcastsInDim S16384x128 (![] : Fin 0 → Fin S16384x128.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  bcast_S16384_S1x16384_1 : S16384.BroadcastsInDim S1x16384 (![1] : Fin 1 → Fin S1x16384.rank)
  bcast_S4096x1_S4096x16384_0_1 : S4096x1.BroadcastsInDim S4096x16384 (![0, 1] : Fin 2 → Fin S4096x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  dot_S4096x128_S16384x128_S4096x16384_1_1_0_0_n_n_wf : DotDims.WF S4096x128 S16384x128 S4096x16384 [1] [1] [0] [0] [] []

variable [Facts₀]

def dot_S4096x128_S16384x128_S4096x16384_1_1_0_0_n_n : DotDims S4096x128 S16384x128 S4096x16384 where
  lhsContracting := [1]
  rhsContracting := [1]
  lhsNonContracting := [0]
  rhsNonContracting := [0]
  lhsBatch := []
  rhsBatch := []
  wf := dot_S4096x128_S16384x128_S4096x16384_1_1_0_0_n_n_wf

class Facts : Prop extends Facts₀ where

variable [Facts]
-- ==== Proof.Spec.lean ====
/-
  What the program computes, stated once over the extended reals, and the index arithmetic of the three
  shape operations that put a column of row sums beside a matrix.

  For a matrix `v` of `R` rows and 128 columns, a row `r` has the sum of squares
  `rowSq v r = Σ_d v[r,d]²`; the row scaled to length three is `unit3 v r d = 3 · v[r,d] · rsqrt (max (rowSq v r) ε)`
  (`ε` the shared float literal, never evaluated), and the scaled row's own sum of squares is `unit3Sq v r`.
  The result at `(b, c)` is `unit3Sq x b + unit3Sq p c − 2 · Σ_k unit3 x b k · unit3 p c k`: the squared distance
  of the two scaled rows, written as two norms and a cross term. Nothing here needs the entries to be finite:
  both programs apply the same operations in the same order, so no law of arithmetic is used beyond
  `0 + s = s`.
-/
import Idealize.ShloMosaic.PureOps.Ideal
import Idealize.ShloMosaic.PureOps.Ideal.Laws
import Idealize.ShloMosaic.Lib.ValueIdx
import Idealize.ShloMosaic.Lib.Pipeline.Value

noncomputable section

namespace Cert.CosDist

open Idealize.ShloMosaic Idealize.ShloMosaic.ValueIdx

/-- The three float literals both programs share, as the extended reals their words denote. -/
abbrev three : EReal := Ideal.ofBits .f32 0x40400000#32
abbrev floorSq : EReal := Ideal.ofBits .f32 0x2B8CBCCC#32
abbrev two : EReal := Ideal.ofBits .f32 0x40000000#32

section Rows
variable {R : ℕ}

/-- The sum of the squares of row `r`. -/
def rowSq (v : (⟨2, ![R, 128]⟩ : Shape).Idx → EReal) (r : Fin R) : EReal :=
  ∑ d : Fin 128, v (ix2 r d) * v (ix2 r d)

/-- Entry `d` of row `r` scaled to length three: `3 · v[r,d] · rsqrt (max (rowSq v r) ε)`. -/
def unit3 (v : (⟨2, ![R, 128]⟩ : Shape).Idx → EReal) (r : Fin R) (d : Fin 128) : EReal :=
  three * v (ix2 r d) * Ideal.rsqrt (max (rowSq v r) floorSq)

/-- The sum of the squares of the scaled row `r`. -/
def unit3Sq (v : (⟨2, ![R, 128]⟩ : Shape).Idx → EReal) (r : Fin R) : EReal :=
  ∑ d : Fin 128, unit3 v r d * unit3 v r d

/-- The scaled matrix. -/
def unit3Arr (v : (⟨2, ![R, 128]⟩ : Shape).Idx → EReal) : (⟨2, ![R, 128]⟩ : Shape).Idx → EReal :=
  fun i => unit3 v (i 0) (i 1)

/-- The scaled rows' sums of squares as a column, -/
def unit3SqCol (v : (⟨2, ![R, 128]⟩ : Shape).Idx → EReal) : (⟨2, ![R, 1]⟩ : Shape).Idx → EReal :=
  fun i => unit3Sq v (i 0)

/-- and as a row. -/
def unit3SqRow (v : (⟨2, ![R, 128]⟩ : Shape).Idx → EReal) : (⟨2, ![1, R]⟩ : Shape).Idx → EReal :=
  fun i => unit3Sq v (i 1)

end Rows

/-- Two norms and a cross term, from a scaled matrix, its column of norms, a second scaled matrix and its row of
    norms: `xs[b] + ps[c] − 2 · Σ_k xn[b,k] · pn[c,k]`. -/
def combine {B C : ℕ} (xn : (⟨2, ![B, 128]⟩ : Shape).Idx → EReal) (xs : (⟨2, ![B, 1]⟩ : Shape).Idx → EReal)
    (pn : (⟨2, ![C, 128]⟩ : Shape).Idx → EReal) (ps : (⟨2, ![1, C]⟩ : Shape).Idx → EReal) :
    (⟨2, ![B, C]⟩ : Shape).Idx → EReal :=
  fun i => xs (ix2 (i 0) (0 : Fin 1)) + ps (ix2 (0 : Fin 1) (i 1)) - two * ∑ k : Fin 128, xn (ix2 (i 0) k) * pn (ix2 (i 1) k)

/-- The result: the squared distance of scaled row `b` of `x` and scaled row `c` of `p`. -/
def dist {B C : ℕ} (x : (⟨2, ![B, 128]⟩ : Shape).Idx → EReal) (p : (⟨2, ![C, 128]⟩ : Shape).Idx → EReal) :
    (⟨2, ![B, C]⟩ : Shape).Idx → EReal :=
  fun i => unit3Sq x (i 0) + unit3Sq p (i 1) - two * ∑ k : Fin 128, unit3 x (i 0) k * unit3 p (i 1) k

/-- The result is `combine` of the four intermediate arrays. -/
theorem combine_unit3 {B C : ℕ} (x : (⟨2, ![B, 128]⟩ : Shape).Idx → EReal) (p : (⟨2, ![C, 128]⟩ : Shape).Idx → EReal) :
    combine (unit3Arr x) (unit3SqCol x) (unit3Arr p) (unit3SqRow p) = dist x p := rfl

/-- The scaled matrix at an index whose coordinates are `r` and `d`. -/
theorem unit3Arr_of {R : ℕ} (v : (⟨2, ![R, 128]⟩ : Shape).Idx → EReal) (i : (⟨2, ![R, 128]⟩ : Shape).Idx) (r : Fin R) (d : Fin 128)
    (h0 : (i 0).val = r.val) (h1 : (i 1).val = d.val) : unit3Arr v i = unit3 v r d := by
  have e : i = ix2 r d := funext fun a => Fin.ext (by match a with | ⟨0, _⟩ => exact h0 | ⟨1, _⟩ => exact h1)
  subst e; rfl

/-- The column of norms at an index whose row is `r`. -/
theorem unit3SqCol_of {R : ℕ} (v : (⟨2, ![R, 128]⟩ : Shape).Idx → EReal) (i : (⟨2, ![R, 1]⟩ : Shape).Idx) (r : Fin R)
    (h0 : (i 0).val = r.val) : unit3SqCol v i = unit3Sq v r :=
  congrArg (unit3Sq v) (Fin.ext h0)

/-- `combine` at an index whose coordinates are `b` and `c`. -/
theorem combine_of {B C : ℕ} (xn : (⟨2, ![B, 128]⟩ : Shape).Idx → EReal) (xs : (⟨2, ![B, 1]⟩ : Shape).Idx → EReal)
    (pn : (⟨2, ![C, 128]⟩ : Shape).Idx → EReal) (ps : (⟨2, ![1, C]⟩ : Shape).Idx → EReal)
    (i : (⟨2, ![B, C]⟩ : Shape).Idx) (b : Fin B) (c : Fin C) (h0 : (i 0).val = b.val) (h1 : (i 1).val = c.val) :
    combine xn xs pn ps i
      = xs (ix2 b (0 : Fin 1)) + ps (ix2 (0 : Fin 1) c) - two * ∑ k : Fin 128, xn (ix2 b k) * pn (ix2 c k) := by
  have e : i = ix2 b c := funext fun a => Fin.ext (by match a with | ⟨0, _⟩ => exact h0 | ⟨1, _⟩ => exact h1)
  subst e; rfl

/-! ## Shape operations read at an index given by coordinates -/

section Layout
variable {α : Type}

/-- A vector of `a` entries cast to a column reads, at `(i, u)`, entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column cast to a row reads, at `(u, i)`, the column's entry `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu]; omega)

/-- A column broadcast over `b` columns reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the rows of an `a × 128` matrix, kept as a column, reads at `(p, u)` the sum of row `p`. -/
theorem rowSum_col_apply {a : ℕ} (src : FVec Ideal ⟨2, ![a, 128]⟩ .f32) (acc : BitVec 32)
    (h : (⟨2, ![a, 128]⟩ : Shape).Reduces [1] ⟨1, ![a]⟩) (hφ : FKind.Formats .f32) (hacc : acc = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ src acc h hφ hacc) hc (ix2 p u) = ∑ k : Fin 128, src (ix2 p k) := by
  rw [shapeCast_a_a1_apply]
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.CosDist

end
-- ==== Proof.RefIsSpec.lean ====
/-
  The reference, read one operation at a time, is the distance of the scaled rows: every stage of its program is
  one of the operations of `Cert.CosDist.dist` at the same index, its row sums started from the literal zero.
-/
import proofs.«137773_j75359496176232_1_alg».proof.Proof.Gen.ReferenceIdeal.Read
import proofs.«137773_j75359496176232_1_alg».proof.Proof.Spec

noncomputable section

namespace Cert.CosDist.Ref

open Idealize.ShloMosaic Idealize.ShloMosaic.ValueIdx Cert.ReferenceIdeal Cert.ReferenceIdeal.Read Cert.CosDist

/-- The first argument's rows scaled to length three, entry by entry: the row sum of squares starts from the
    literal zero, which adds nothing. -/
theorem scaled_x (x : S4096x128.Idx → EReal) (r : Fin 4096) (d : Fin 128) :
    val_main_v9 (F := Ideal) x (ix2 r d) = unit3 x r d := by
  rw [val_main_v9_apply, val_main_v4_apply, val_main_v3_apply, val_main_cst_0_apply, val_main_v8_apply, val_main_v7_apply,
    val_main_v6_apply, val_main_v2_apply, val_main_v1_apply, val_main_v5_apply, val_main_cst_1_apply, val_main_cst_apply]
  have hidx : ∀ k : Fin 128, idx_main_v1 (idx_main_v2 (idx_main_v8 (ix2 r d))) k = ix2 r k := fun k =>
    funext fun a => Fin.ext (by match a with | ⟨0, _⟩ => rfl | ⟨1, _⟩ => rfl)
  simp only [hidx, val_main_v0_apply]
  show Ideal.ofBits .f32 0x40400000#32 * x (ix2 r d)
      * Ideal.rsqrt (max (Ideal.ofBits .f32 0x00000000#32 + ∑ k : Fin 128, x (ix2 r k) * x (ix2 r k)) (Ideal.ofBits .f32 0x2B8CBCCC#32)) = _
  rw [Ideal.ofBits_zero_f32, zero_add]
  rfl

/-- The second argument's rows likewise. -/
theorem scaled_p (p : S16384x128.Idx → EReal) (r : Fin 16384) (d : Fin 128) :
    val_main_v19 (F := Ideal) p (ix2 r d) = unit3 p r d := by
  rw [val_main_v19_apply, val_main_v14_apply, val_main_v13_apply, val_main_cst_3_apply, val_main_v18_apply, val_main_v17_apply,
    val_main_v16_apply, val_main_v12_apply, val_main_v11_apply, val_main_v15_apply, val_main_cst_4_apply, val_main_cst_2_apply]
  have hidx : ∀ k : Fin 128, idx_main_v11 (idx_main_v12 (idx_main_v18 (ix2 r d))) k = ix2 r k := fun k =>
    funext fun a => Fin.ext (by match a with | ⟨0, _⟩ => rfl | ⟨1, _⟩ => rfl)
  simp only [hidx, val_main_v10_apply]
  show Ideal.ofBits .f32 0x40400000#32 * p (ix2 r d)
      * Ideal.rsqrt (max (Ideal.ofBits .f32 0x00000000#32 + ∑ k : Fin 128, p (ix2 r k) * p (ix2 r k)) (Ideal.ofBits .f32 0x2B8CBCCC#32)) = _
  rw [Ideal.ofBits_zero_f32, zero_add]
  rfl

/-- The reference's result is the squared distance of the scaled rows. -/
theorem result_eq (x : S4096x128.Idx → EReal) (p : S16384x128.Idx → EReal) :
    val_main_v32 (F := Ideal) x p = dist x p := by
  funext i
  obtain ⟨b, c, rfl⟩ : ∃ (b : Fin 4096) (c : Fin 16384), i = ix2 b c := ⟨i 0, i 1, eq_ix2 i⟩
  rw [val_main_v32_apply, val_main_v29_apply, val_main_v27_apply, val_main_v22_apply, val_main_v21_apply, val_main_v28_apply,
    val_main_v26_apply, val_main_v24_apply, val_main_v31_apply, val_main_v30_apply, val_main_cst_7_apply, val_main_v25_apply,
    val_main_cst_5_apply, val_main_cst_6_apply]
  have hx : ∀ k : Fin 128, idx_main_v21 (idx_main_v22 (idx_main_v27 (ix2 b c))) k = ix2 b k := fun k =>
    funext fun a => Fin.ext (by match a with | ⟨0, _⟩ => rfl | ⟨1, _⟩ => rfl)
  have hp : ∀ k : Fin 128, idx_main_v24 (idx_main_v26 (idx_main_v28 (ix2 b c))) k = ix2 c k := fun k =>
    funext fun a => Fin.ext (by match a with | ⟨0, _⟩ => rfl | ⟨1, _⟩ => rfl)
  have hl : ∀ k : Fin 128, lidx_main_v25 (ix2 b c) k = ix2 b k := fun k =>
    funext fun a => Fin.ext (by match a with | ⟨0, _⟩ => rfl | ⟨1, _⟩ => rfl)
  have hr : ∀ k : Fin 128, ridx_main_v25 (ix2 b c) k = ix2 c k := fun k =>
    funext fun a => Fin.ext (by match a with | ⟨0, _⟩ => rfl | ⟨1, _⟩ => rfl)
  simp only [hx, hp, hl, hr, val_main_v20_apply, val_main_v23_apply, scaled_x, scaled_p]
  show (Ideal.ofBits .f32 0x00000000#32 + ∑ k : Fin 128, unit3 x b k * unit3 x b k)
      + (Ideal.ofBits .f32 0x00000000#32 + ∑ k : Fin 128, unit3 p c k * unit3 p c k)
      - Ideal.ofBits .f32 0x40000000#32 * ∑ k : Fin 128, unit3 x b k * unit3 p c k = _
  rw [Ideal.ofBits_zero_f32, zero_add, zero_add]
  rfl

end Cert.CosDist.Ref

end
-- ==== Proof.Norm0.lean ====
/-
  The first region: rows of the first argument, 1024 at a time, scaled to length three, and the scaled rows' norms.

  At grid point `t` the body loads the 1024 rows of the argument from row `1024·t` on, so its row sums run over the
  same 128 entries as the whole matrix's row sums: what it stores, entry by entry, is `unit3` and `unit3Sq` of the
  argument at the row `1024·t + q`. The four blocks tile each output array, so after the region the first output is
  the scaled matrix and the second the column of its norms, whatever the region found in them.
-/
import proofs.«137773_j75359496176232_1_alg».proof.Proof.Gen.KernelIdeal.Frame
import proofs.«137773_j75359496176232_1_alg».proof.Proof.Spec
import Idealize.ShloMosaic.Lib.Pipeline.Value

set_option maxRecDepth 16384

noncomputable section

namespace Cert.CosDist.Norm0

open Cert.KernelIdeal Cert.KernelIdeal.Gen Cert.CosDist
open Idealize.ShloMosaic Idealize.ShloMosaic.ValueIdx Idealize.ShloMosaic.TcCoe Idealize.SL.Sem
open Idealize.ShloMosaic.Pipeline (Dat)

/-! ## The body's arithmetic on one block -/

/-- A block whose rows are rows `o + ·` of a matrix `A`: the scaled block's entry `(q, d)` is `unit3 A (o + q) d`.
    The row sum of squares of the block is the matrix's, term by term. -/
theorem scaled_block (x0 : FVec Ideal S1024x128 .f32) (A : S4096x128.Idx → EReal) (o : ℕ) (ho : o + 1024 ≤ 4096)
    (hx : ∀ (q : Fin 1024) (k : Fin 128), x0 (ix2 q k) = A (ix2 ⟨o + q.val, by omega⟩ k)) (q : Fin 1024) (d : Fin 128) :
    k0_pay1 (F := Ideal) x0 (ix2 q d) = unit3 A ⟨o + q.val, by omega⟩ d := by
  unfold k0_pay1
  simp only [mulf_apply, broadcast_apply]
  rw [broadcastTo_a1_ab_apply]
  show Ideal.ofBits .f32 0x40400000#32 * x0 (ix2 q d) * Ideal.rsqrt (max (shapeCast S1024x1
            (multiReduction FKind.add [1] S1024 (mulf x0 x0) (0#32) reduces_S1024x128_S1024 _ _) shapeCasts_S1024_S1024x1 (ix2 q 0))
          (Ideal.ofBits .f32 0x2B8CBCCC#32)) = _
  refine (congrArg (fun s => Ideal.ofBits .f32 0x40400000#32 * x0 (ix2 q d) * Ideal.rsqrt (max s (Ideal.ofBits .f32 0x2B8CBCCC#32)))
    (rowSum_col_apply (mulf x0 x0) _ _ _ _ _ q 0)).trans ?_
  simp only [mulf_apply, hx]
  rfl

/-- The stored block is the scaled block: the change of float format is the identity on the extended reals. -/
theorem stored_block (x0 : FVec Ideal S1024x128 .f32) (A : S4096x128.Idx → EReal) (o : ℕ) (ho : o + 1024 ≤ 4096)
    (hx : ∀ (q : Fin 1024) (k : Fin 128), x0 (ix2 q k) = A (ix2 ⟨o + q.val, by omega⟩ k)) (q : Fin 1024) (d : Fin 128) :
    k0_pay2 (F := Ideal) x0 (ix2 q d) = unit3 A ⟨o + q.val, by omega⟩ d := by
  unfold k0_pay2
  exact scaled_block x0 A o ho hx q d

/-- The stored column: row `q`'s entry is the norm of the scaled row `o + q`. -/
theorem stored_norms (x0 : FVec Ideal S1024x128 .f32) (A : S4096x128.Idx → EReal) (o : ℕ) (ho : o + 1024 ≤ 4096)
    (hx : ∀ (q : Fin 1024) (k : Fin 128), x0 (ix2 q k) = A (ix2 ⟨o + q.val, by omega⟩ k)) (q : Fin 1024) (u : Fin 1) :
    k0_pay3 (F := Ideal) x0 (ix2 q u) = unit3Sq A ⟨o + q.val, by omega⟩ := by
  unfold k0_pay3
  refine (rowSum_col_apply (mulf (k0_pay1 x0) (k0_pay1 x0)) _ _ _ _ _ q u).trans ?_
  simp only [mulf_apply, scaled_block x0 A o ho hx]
  rfl

/-! ## From blocks to arrays -/

variable (V : (c : Dev nD) → (b : Ref sig .tc) → Buf (Elt Ideal) ((c : Thread nD τ).loc b))

/-- The argument as the region finds it. -/
abbrev arg (c : Dev nD) : S4096x128.Idx → EReal := V c main_arg0

theorem origin : (![0, 0] : Fin 2 → Nat) = fun _ => 0 := funext fun a => by fin_cases a <;> rfl

/-- The three index maps over the grid: block `t` of every window is rows `1024·t …`, all columns. -/
theorem index_maps : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 ∧ t.val < 4 :=
  (by decide +kernel : ∀ t : Fin grid0.N, _)

/-- Every block of rows is some point's. -/
theorem point_of_block : ∀ b : Fin 4, ∃ t : Fin cfg0.N, t.val = b.val :=
  (by decide +kernel : ∀ b : Fin 4, ∃ t : Fin grid0.N, t.val = b.val)

/-- The input block at point `t` is rows `1024·t + ·` of the argument. -/
theorem input_block (c : Dev nD) (t : Fin cfg0.N) (ht : t.val * 1024 + 1024 ≤ 4096) (q : Fin 1024) (k : Fin 128) :
    (iblk0 V c 0 t : FVec Ideal S1024x128 .f32) (ix2 q k) = arg V c (ix2 ⟨t.val * 1024 + q.val, by omega⟩ k) := by
  obtain ⟨e0, e1, -⟩ := index_maps t
  show V c main_arg0 (((cfg0.win 0).blk t).view.emb (ix2 q k)) = _
  refine congrArg (V c main_arg0) (funext fun a => Fin.ext ?_)
  match a with
  | ⟨0, _⟩ => show win0_0.index t (0 : Fin 2) * 1024 + 1 * q.val = t.val * 1024 + q.val; rw [e0]; omega
  | ⟨1, _⟩ => show win0_0.index t (1 : Fin 2) * 128 + 1 * k.val = k.val; rw [e1]; omega

/-- What point `t` writes back to the first output is block `t` of the scaled matrix. -/
theorem flushed_scaled (c : Dev nD) (t : Fin cfg0.N) :
    (dat0 V c).flushed 1 t = ((cfg0.win 1).blk t).view.read (Elt Ideal) (unit3Arr (arg V c)) := by
  show (cfg0.win 1).cut (grid0.coords t) ((dat0 V c).after 1 t) = _
  rw [after0_1]
  unfold out0_1
  rw [View.canon_unit_zero origin]
  simp only [View.ld_unit_zero (S := S1024x128) origin]
  obtain ⟨e0, e1, e2, e3, e4, e5, e6⟩ := index_maps t
  funext j
  obtain ⟨q, d, rfl⟩ : ∃ (q : Fin 1024) (d : Fin 128), j = ix2 q d := ⟨j 0, j 1, eq_ix2 j⟩
  show k0_pay2 (F := Ideal) (iblk0 V c 0 t) (ix2 q d) = unit3Arr (arg V c) (((cfg0.win 1).blk t).view.emb (ix2 q d))
  refine (stored_block (iblk0 V c 0 t) (arg V c) (t.val * 1024) (by omega) (input_block V c t (by omega)) q d).trans ?_
  refine (unit3Arr_of (arg V c) _ _ _ ?_ ?_).symm
  · show win0_1.index t (0 : Fin 2) * 1024 + 1 * q.val = t.val * 1024 + q.val; rw [e2]; omega
  · show win0_1.index t (1 : Fin 2) * 128 + 1 * d.val = d.val; rw [e3]; omega

/-- What point `t` writes back to the second output is block `t` of the column of norms. -/
theorem flushed_norms (c : Dev nD) (t : Fin cfg0.N) :
    (dat0 V c).flushed 2 t = ((cfg0.win 2).blk t).view.read (Elt Ideal) (unit3SqCol (arg V c)) := by
  show (cfg0.win 2).cut (grid0.coords t) ((dat0 V c).after 2 t) = _
  rw [after0_2]
  unfold out0_2
  rw [View.canon_unit_zero origin]
  simp only [View.ld_unit_zero (S := S1024x128) origin]
  obtain ⟨e0, e1, e2, e3, e4, e5, e6⟩ := index_maps t
  funext j
  obtain ⟨q, u, rfl⟩ : ∃ (q : Fin 1024) (u : Fin 1), j = ix2 q u := ⟨j 0, j 1, eq_ix2 j⟩
  show k0_pay3 (F := Ideal) (iblk0 V c 0 t) (ix2 q u) = unit3SqCol (arg V c) (((cfg0.win 2).blk t).view.emb (ix2 q u))
  refine (stored_norms (iblk0 V c 0 t) (arg V c) (t.val * 1024) (by omega) (input_block V c t (by omega)) q u).trans ?_
  refine (unit3SqCol_of (arg V c) _ _ ?_).symm
  show win0_2.index t (0 : Fin 2) * 1024 + 1 * q.val = t.val * 1024 + q.val; rw [e4]; omega

/-- An index of the first output is in point `t`'s block iff each coordinate is in the block's range. -/
theorem mem_block_scaled (t : Fin cfg0.N) (i : S4096x128.Idx) :
    i ∈ ((cfg0.win 1).blk t).view.set ↔ ∀ a : Fin 2, win0_1.index t a * S1024x128.size a ≤ (i a).val ∧ (i a).val < win0_1.index t a * S1024x128.size a + S1024x128.size a := by
  show i ∈ ((View.whole main_v0_0).slice (win0_1.rect t)).set ↔ _
  rw [View.set_slice_whole, Rect.mem_set_unit]
  exact Iff.rfl

theorem mem_block_norms (t : Fin cfg0.N) (i : S4096x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0_1).slice (win0_2.rect t)).set ↔ _
  rw [View.set_slice_whole, Rect.mem_set_unit]
  exact Iff.rfl

/-- Row `r` lies in the block of point `r / 1024`. -/
theorem cover_scaled (i : S4096x128.Idx) :
    ∃ t : Fin cfg0.N, (cfg0.win 1).flush t = true ∧ i ∈ ((cfg0.win 1).blk t).view.set := by
  have hi0 : (i 0).val < 4096 := (i 0).isLt
  have hi1 : (i 1).val < 128 := (i 1).isLt
  obtain ⟨t, ht⟩ := point_of_block ⟨(i 0).val / 1024, by omega⟩
  have ht' : t.val = (i 0).val / 1024 := ht
  obtain ⟨e0, e1, e2, e3, e4, e5, e6⟩ := index_maps t
  refine ⟨t, flush0_1 t, ?_⟩
  rw [mem_block_scaled]
  intro a
  match a with
  | ⟨0, _⟩ => show win0_1.index t (0 : Fin 2) * 1024 ≤ (i 0).val ∧ (i 0).val < win0_1.index t (0 : Fin 2) * 1024 + 1024; rw [e2]; omega
  | ⟨1, _⟩ => show win0_1.index t (1 : Fin 2) * 128 ≤ (i 1).val ∧ (i 1).val < win0_1.index t (1 : Fin 2) * 128 + 128; rw [e3]; omega

theorem cover_norms (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  obtain ⟨t, ht⟩ := point_of_block ⟨(i 0).val / 1024, by omega⟩
  have ht' : t.val = (i 0).val / 1024 := ht
  obtain ⟨e0, e1, e2, e3, e4, e5, e6⟩ := index_maps t
  refine ⟨t, flush0_2 t, ?_⟩
  rw [mem_block_norms]
  intro a
  match a with
  | ⟨0, _⟩ => show win0_2.index t (0 : Fin 2) * 1024 ≤ (i 0).val ∧ (i 0).val < win0_2.index t (0 : Fin 2) * 1024 + 1024; rw [e4]; omega
  | ⟨1, _⟩ => show win0_2.index t (1 : Fin 2) * 1 ≤ (i 1).val ∧ (i 1).val < win0_2.index t (1 : Fin 2) * 1 + 1; rw [e5]; omega

/-- After the region the first output array is the scaled matrix, -/
theorem final_scaled (c : Dev nD) : (dat0 V c).arrAt 1 cfg0.N = unit3Arr (arg V c) :=
  (dat0 V c).arrAt_eq_of_cover 1 (unit3Arr (arg V c)) (fun t _ => flushed_scaled V c t) cover_scaled

/-- and the second the column of its rows' norms. -/
theorem final_norms (c : Dev nD) : (dat0 V c).arrAt 2 cfg0.N = unit3SqCol (arg V c) :=
  (dat0 V c).arrAt_eq_of_cover 2 (unit3SqCol (arg V c)) (fun t _ => flushed_norms V c t) cover_norms

end Cert.CosDist.Norm0

end
-- ==== Proof.Norm1.lean ====
/-
  The second region: rows of the second argument, 2048 at a time, scaled to length three, and the scaled rows' norms.

  At grid point `t` the body loads the 2048 rows of the argument from row `2048·t` on, so its row sums run over the
  same 128 entries as the whole matrix's row sums: what it stores, entry by entry, is `unit3` and `unit3Sq` of the
  argument at the row `2048·t + q`. The eight blocks tile each output array, so after the region the first output is
  the scaled matrix and the second the column of its norms, whatever the region found in them.
-/
import proofs.«137773_j75359496176232_1_alg».proof.Proof.Gen.KernelIdeal.Frame
import proofs.«137773_j75359496176232_1_alg».proof.Proof.Spec
import Idealize.ShloMosaic.Lib.Pipeline.Value

set_option maxRecDepth 16384

noncomputable section

namespace Cert.CosDist.Norm1

open Cert.KernelIdeal Cert.KernelIdeal.Gen Cert.CosDist
open Idealize.ShloMosaic Idealize.ShloMosaic.ValueIdx Idealize.ShloMosaic.TcCoe Idealize.SL.Sem
open Idealize.ShloMosaic.Pipeline (Dat)

/-! ## The body's arithmetic on one block -/

/-- A block whose rows are rows `o + ·` of a matrix `A`: the scaled block's entry `(q, d)` is `unit3 A (o + q) d`.
    The row sum of squares of the block is the matrix's, term by term. -/
theorem scaled_block (x0 : FVec Ideal S2048x128 .f32) (A : S16384x128.Idx → EReal) (o : ℕ) (ho : o + 2048 ≤ 16384)
    (hx : ∀ (q : Fin 2048) (k : Fin 128), x0 (ix2 q k) = A (ix2 ⟨o + q.val, by omega⟩ k)) (q : Fin 2048) (d : Fin 128) :
    k1_pay1 (F := Ideal) x0 (ix2 q d) = unit3 A ⟨o + q.val, by omega⟩ d := by
  unfold k1_pay1
  simp only [mulf_apply, broadcast_apply]
  rw [broadcastTo_a1_ab_apply]
  show Ideal.ofBits .f32 0x40400000#32 * x0 (ix2 q d) * Ideal.rsqrt (max (shapeCast S2048x1
            (multiReduction FKind.add [1] S2048 (mulf x0 x0) (0#32) reduces_S2048x128_S2048 _ _) shapeCasts_S2048_S2048x1 (ix2 q 0))
          (Ideal.ofBits .f32 0x2B8CBCCC#32)) = _
  refine (congrArg (fun s => Ideal.ofBits .f32 0x40400000#32 * x0 (ix2 q d) * Ideal.rsqrt (max s (Ideal.ofBits .f32 0x2B8CBCCC#32)))
    (rowSum_col_apply (mulf x0 x0) _ _ _ _ _ q 0)).trans ?_
  simp only [mulf_apply, hx]
  rfl

/-- The stored block is the scaled block: the change of float format is the identity on the extended reals. -/
theorem stored_block (x0 : FVec Ideal S2048x128 .f32) (A : S16384x128.Idx → EReal) (o : ℕ) (ho : o + 2048 ≤ 16384)
    (hx : ∀ (q : Fin 2048) (k : Fin 128), x0 (ix2 q k) = A (ix2 ⟨o + q.val, by omega⟩ k)) (q : Fin 2048) (d : Fin 128) :
    k1_pay2 (F := Ideal) x0 (ix2 q d) = unit3 A ⟨o + q.val, by omega⟩ d := by
  unfold k1_pay2
  exact scaled_block x0 A o ho hx q d

/-- The stored column: row `q`'s entry is the norm of the scaled row `o + q`. -/
theorem stored_norms (x0 : FVec Ideal S2048x128 .f32) (A : S16384x128.Idx → EReal) (o : ℕ) (ho : o + 2048 ≤ 16384)
    (hx : ∀ (q : Fin 2048) (k : Fin 128), x0 (ix2 q k) = A (ix2 ⟨o + q.val, by omega⟩ k)) (q : Fin 2048) (u : Fin 1) :
    k1_pay3 (F := Ideal) x0 (ix2 q u) = unit3Sq A ⟨o + q.val, by omega⟩ := by
  unfold k1_pay3
  refine (rowSum_col_apply (mulf (k1_pay1 x0) (k1_pay1 x0)) _ _ _ _ _ q u).trans ?_
  simp only [mulf_apply, scaled_block x0 A o ho hx]
  rfl

/-! ## From blocks to arrays -/

variable (V : (c : Dev nD) → (b : Ref sig .tc) → Buf (Elt Ideal) ((c : Thread nD τ).loc b))

/-- The argument as the region finds it. -/
abbrev arg (c : Dev nD) : S16384x128.Idx → EReal := V c main_arg1

theorem origin : (![0, 0] : Fin 2 → Nat) = fun _ => 0 := funext fun a => by fin_cases a <;> rfl

/-- The three index maps over the grid: block `t` of every window is rows `2048·t …`, all columns. -/
theorem index_maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 ∧ t.val < 8 :=
  (by decide +kernel : ∀ t : Fin grid1.N, _)

/-- Every block of rows is some point's. -/
theorem point_of_block : ∀ b : Fin 8, ∃ t : Fin cfg1.N, t.val = b.val :=
  (by decide +kernel : ∀ b : Fin 8, ∃ t : Fin grid1.N, t.val = b.val)

/-- The input block at point `t` is rows `2048·t + ·` of the argument. -/
theorem input_block (c : Dev nD) (t : Fin cfg1.N) (ht : t.val * 2048 + 2048 ≤ 16384) (q : Fin 2048) (k : Fin 128) :
    (iblk1 V c 0 t : FVec Ideal S2048x128 .f32) (ix2 q k) = arg V c (ix2 ⟨t.val * 2048 + q.val, by omega⟩ k) := by
  obtain ⟨e0, e1, -⟩ := index_maps t
  show V c main_arg1 (((cfg1.win 0).blk t).view.emb (ix2 q k)) = _
  refine congrArg (V c main_arg1) (funext fun a => Fin.ext ?_)
  match a with
  | ⟨0, _⟩ => show win1_0.index t (0 : Fin 2) * 2048 + 1 * q.val = t.val * 2048 + q.val; rw [e0]; omega
  | ⟨1, _⟩ => show win1_0.index t (1 : Fin 2) * 128 + 1 * k.val = k.val; rw [e1]; omega

/-- What point `t` writes back to the first output is block `t` of the scaled matrix. -/
theorem flushed_scaled (c : Dev nD) (t : Fin cfg1.N) :
    (dat1 V c).flushed 1 t = ((cfg1.win 1).blk t).view.read (Elt Ideal) (unit3Arr (arg V c)) := by
  show (cfg1.win 1).cut (grid1.coords t) ((dat1 V c).after 1 t) = _
  rw [after1_1]
  unfold out1_1
  rw [View.canon_unit_zero origin]
  simp only [View.ld_unit_zero (S := S2048x128) origin]
  obtain ⟨e0, e1, e2, e3, e4, e5, e6⟩ := index_maps t
  funext j
  obtain ⟨q, d, rfl⟩ : ∃ (q : Fin 2048) (d : Fin 128), j = ix2 q d := ⟨j 0, j 1, eq_ix2 j⟩
  show k1_pay2 (F := Ideal) (iblk1 V c 0 t) (ix2 q d) = unit3Arr (arg V c) (((cfg1.win 1).blk t).view.emb (ix2 q d))
  refine (stored_block (iblk1 V c 0 t) (arg V c) (t.val * 2048) (by omega) (input_block V c t (by omega)) q d).trans ?_
  refine (unit3Arr_of (arg V c) _ _ _ ?_ ?_).symm
  · show win1_1.index t (0 : Fin 2) * 2048 + 1 * q.val = t.val * 2048 + q.val; rw [e2]; omega
  · show win1_1.index t (1 : Fin 2) * 128 + 1 * d.val = d.val; rw [e3]; omega

/-- What point `t` writes back to the second output is block `t` of the column of norms. -/
theorem flushed_norms (c : Dev nD) (t : Fin cfg1.N) :
    (dat1 V c).flushed 2 t = ((cfg1.win 2).blk t).view.read (Elt Ideal) (unit3SqCol (arg V c)) := by
  show (cfg1.win 2).cut (grid1.coords t) ((dat1 V c).after 2 t) = _
  rw [after1_2]
  unfold out1_2
  rw [View.canon_unit_zero origin]
  simp only [View.ld_unit_zero (S := S2048x128) origin]
  obtain ⟨e0, e1, e2, e3, e4, e5, e6⟩ := index_maps t
  funext j
  obtain ⟨q, u, rfl⟩ : ∃ (q : Fin 2048) (u : Fin 1), j = ix2 q u := ⟨j 0, j 1, eq_ix2 j⟩
  show k1_pay3 (F := Ideal) (iblk1 V c 0 t) (ix2 q u) = unit3SqCol (arg V c) (((cfg1.win 2).blk t).view.emb (ix2 q u))
  refine (stored_norms (iblk1 V c 0 t) (arg V c) (t.val * 2048) (by omega) (input_block V c t (by omega)) q u).trans ?_
  refine (unit3SqCol_of (arg V c) _ _ ?_).symm
  show win1_2.index t (0 : Fin 2) * 2048 + 1 * q.val = t.val * 2048 + q.val; rw [e4]; omega

/-- An index of the first output is in point `t`'s block iff each coordinate is in the block's range. -/
theorem mem_block_scaled (t : Fin cfg1.N) (i : S16384x128.Idx) :
    i ∈ ((cfg1.win 1).blk t).view.set ↔ ∀ a : Fin 2, win1_1.index t a * S2048x128.size a ≤ (i a).val ∧ (i a).val < win1_1.index t a * S2048x128.size a + S2048x128.size a := by
  show i ∈ ((View.whole main_v1_0).slice (win1_1.rect t)).set ↔ _
  rw [View.set_slice_whole, Rect.mem_set_unit]
  exact Iff.rfl

theorem mem_block_norms (t : Fin cfg1.N) (i : S16384x1.Idx) :
    i ∈ ((cfg1.win 2).blk t).view.set ↔ ∀ a : Fin 2, win1_2.index t a * S2048x1.size a ≤ (i a).val ∧ (i a).val < win1_2.index t a * S2048x1.size a + S2048x1.size a := by
  show i ∈ ((View.whole main_v1_1).slice (win1_2.rect t)).set ↔ _
  rw [View.set_slice_whole, Rect.mem_set_unit]
  exact Iff.rfl

/-- Row `r` lies in the block of point `r / 2048`. -/
theorem cover_scaled (i : S16384x128.Idx) :
    ∃ t : Fin cfg1.N, (cfg1.win 1).flush t = true ∧ i ∈ ((cfg1.win 1).blk t).view.set := by
  have hi0 : (i 0).val < 16384 := (i 0).isLt
  have hi1 : (i 1).val < 128 := (i 1).isLt
  obtain ⟨t, ht⟩ := point_of_block ⟨(i 0).val / 2048, by omega⟩
  have ht' : t.val = (i 0).val / 2048 := ht
  obtain ⟨e0, e1, e2, e3, e4, e5, e6⟩ := index_maps t
  refine ⟨t, flush1_1 t, ?_⟩
  rw [mem_block_scaled]
  intro a
  match a with
  | ⟨0, _⟩ => show win1_1.index t (0 : Fin 2) * 2048 ≤ (i 0).val ∧ (i 0).val < win1_1.index t (0 : Fin 2) * 2048 + 2048; rw [e2]; omega
  | ⟨1, _⟩ => show win1_1.index t (1 : Fin 2) * 128 ≤ (i 1).val ∧ (i 1).val < win1_1.index t (1 : Fin 2) * 128 + 128; rw [e3]; omega

theorem cover_norms (i : S16384x1.Idx) :
    ∃ t : Fin cfg1.N, (cfg1.win 2).flush t = true ∧ i ∈ ((cfg1.win 2).blk t).view.set := by
  have hi0 : (i 0).val < 16384 := (i 0).isLt
  have hi1 : (i 1).val < 1 := (i 1).isLt
  obtain ⟨t, ht⟩ := point_of_block ⟨(i 0).val / 2048, by omega⟩
  have ht' : t.val = (i 0).val / 2048 := ht
  obtain ⟨e0, e1, e2, e3, e4, e5, e6⟩ := index_maps t
  refine ⟨t, flush1_2 t, ?_⟩
  rw [mem_block_norms]
  intro a
  match a with
  | ⟨0, _⟩ => show win1_2.index t (0 : Fin 2) * 2048 ≤ (i 0).val ∧ (i 0).val < win1_2.index t (0 : Fin 2) * 2048 + 2048; rw [e4]; omega
  | ⟨1, _⟩ => show win1_2.index t (1 : Fin 2) * 1 ≤ (i 1).val ∧ (i 1).val < win1_2.index t (1 : Fin 2) * 1 + 1; rw [e5]; omega

/-- After the region the first output array is the scaled matrix, -/
theorem final_scaled (c : Dev nD) : (dat1 V c).arrAt 1 cfg1.N = unit3Arr (arg V c) :=
  (dat1 V c).arrAt_eq_of_cover 1 (unit3Arr (arg V c)) (fun t _ => flushed_scaled V c t) cover_scaled

/-- and the second the column of its rows' norms. -/
theorem final_norms (c : Dev nD) : (dat1 V c).arrAt 2 cfg1.N = unit3SqCol (arg V c) :=
  (dat1 V c).arrAt_eq_of_cover 2 (unit3SqCol (arg V c)) (fun t _ => flushed_norms V c t) cover_norms

end Cert.CosDist.Norm1

end
-- ==== Proof.Tile.lean ====
/-
  The third region: one 1024 × 1024 tile of the result per grid point `(i, j)`.

  The body loads rows `1024·i + ·` of the scaled first matrix and of its column of norms, rows `1024·j + ·` of the
  scaled second matrix, and entries `1024·j + ·` of the row of its norms, and stores
  `xs[q] + ps[r] − 2 · Σ_k xn[q,k] · pn[r,k]`: the product into a zero accumulator is the plain sum over the 128
  shared columns, and the two broadcasts read the column and the row at the tile's own coordinates. The 4 × 16 tiles
  tile the result, so after the region it is `combine` of the four arrays the region found.
-/
import proofs.«137773_j75359496176232_1_alg».proof.Proof.Gen.KernelIdeal.Frame
import proofs.«137773_j75359496176232_1_alg».proof.Proof.Spec
import Idealize.ShloMosaic.Lib.Pipeline.Value
import Idealize.ShloMosaic.Lib.ValueLayout

set_option maxRecDepth 16384

noncomputable section

namespace Cert.CosDist.Tile

open Cert.KernelIdeal Cert.KernelIdeal.Gen Cert.CosDist
open Idealize.ShloMosaic Idealize.ShloMosaic.ValueIdx Idealize.ShloMosaic.TcCoe Idealize.SL.Sem
open Idealize.ShloMosaic.Pipeline (Dat)

/-! ## The product of two row blocks, contracted over their columns -/

theorem lhs_axis0 (i : S1024x1024.Idx) (q : dot_S1024x128_S1024x128_S1024x1024_1_1_0_0_n_n.contr.Idx) :
    (dot_S1024x128_S1024x128_S1024x1024_1_1_0_0_n_n.lhsIdx i q 0).val = (i 0).val := by
  unfold DotDims.lhsIdx
  rw [dif_neg (show ¬(0 : Fin S1024x128.rank) ∈ dot_S1024x128_S1024x128_S1024x1024_1_1_0_0_n_n.lhsBatch by decide), dif_pos (show (0 : Fin S1024x128.rank) ∈ dot_S1024x128_S1024x128_S1024x1024_1_1_0_0_n_n.lhsNonContracting by decide)]
  rfl
theorem lhs_axis1 (i : S1024x1024.Idx) (q : dot_S1024x128_S1024x128_S1024x1024_1_1_0_0_n_n.contr.Idx) :
    (dot_S1024x128_S1024x128_S1024x1024_1_1_0_0_n_n.lhsIdx i q 1).val = (q ⟨0, by decide⟩).val :=
  dot_S1024x128_S1024x128_S1024x1024_1_1_0_0_n_n.lhsIdx_val_of_single rfl i q
theorem rhs_axis0 (i : S1024x1024.Idx) (q : dot_S1024x128_S1024x128_S1024x1024_1_1_0_0_n_n.contr.Idx) :
    (dot_S1024x128_S1024x128_S1024x1024_1_1_0_0_n_n.rhsIdx i q 0).val = (i 1).val := by
  unfold DotDims.rhsIdx
  rw [dif_neg (show ¬(0 : Fin S1024x128.rank) ∈ dot_S1024x128_S1024x128_S1024x1024_1_1_0_0_n_n.rhsBatch by decide), dif_pos (show (0 : Fin S1024x128.rank) ∈ dot_S1024x128_S1024x128_S1024x1024_1_1_0_0_n_n.rhsNonContracting by decide)]
  rfl
theorem rhs_axis1 (i : S1024x1024.Idx) (q : dot_S1024x128_S1024x128_S1024x1024_1_1_0_0_n_n.contr.Idx) :
    (dot_S1024x128_S1024x128_S1024x1024_1_1_0_0_n_n.rhsIdx i q 1).val = (q ⟨0, by decide⟩).val :=
  dot_S1024x128_S1024x128_S1024x1024_1_1_0_0_n_n.rhsIdx_val_of_single rfl i q

/-- Into the zero accumulator, entry `(q, r)` of the product is `Σ_k l[q,k] · r[r,k]`: both operands are
    contracted over their second axis. -/
theorem cross_apply (l r : FVec Ideal S1024x128 .bf16) (q s : Fin 1024) :
    matmul dot_S1024x128_S1024x128_S1024x1024_1_1_0_0_n_n none l r (constant S1024x1024 .f32 0x00000000#32) (ix2 q s)
      = ∑ k : Fin 128, l (ix2 q k) * r (ix2 s k) := by
  simp only [matmul]
  rw [Ideal.matmul_constant_zero_apply, ← Equiv.sum_comp (ValueIdx.contrEquiv1 dot_S1024x128_S1024x128_S1024x1024_1_1_0_0_n_n 128 rfl rfl).symm]
  refine Finset.sum_congr rfl fun k _ => ?_
  have hk := ValueIdx.contrEquiv1_symm_val dot_S1024x128_S1024x128_S1024x1024_1_1_0_0_n_n 128 rfl rfl k
  have el : dot_S1024x128_S1024x128_S1024x1024_1_1_0_0_n_n.lhsIdx (ix2 q s) ((ValueIdx.contrEquiv1 dot_S1024x128_S1024x128_S1024x1024_1_1_0_0_n_n 128 rfl rfl).symm k) = ix2 q k := funext fun a => Fin.ext (by
    match a with
    | ⟨0, _⟩ => exact lhs_axis0 _ _
    | ⟨1, _⟩ => exact (lhs_axis1 _ _).trans hk)
  have er : dot_S1024x128_S1024x128_S1024x1024_1_1_0_0_n_n.rhsIdx (ix2 q s) ((ValueIdx.contrEquiv1 dot_S1024x128_S1024x128_S1024x1024_1_1_0_0_n_n 128 rfl rfl).symm k) = ix2 s k := funext fun a => Fin.ext (by
    match a with
    | ⟨0, _⟩ => exact rhs_axis0 _ _
    | ⟨1, _⟩ => exact (rhs_axis1 _ _).trans hk)
  rw [el, er]

/-! ## The body's arithmetic on one tile -/

/-- The stored tile at `(q, s)`: the column's entry `q` plus the row's entry `s` minus twice the product's. -/
theorem tile_apply (x0 : FVec Ideal S1024x128 .bf16) (x1 : FVec Ideal S1024x1 .f32) (x2 : FVec Ideal S1024x128 .bf16)
    (x3 : FVec Ideal S1x1024 .f32) (q s : Fin 1024) :
    k2_pay1 (F := Ideal) x0 x2 x1 x3 (ix2 q s)
      = x1 (ix2 q (0 : Fin 1)) + x3 (ix2 (0 : Fin 1) s) - two * ∑ k : Fin 128, x0 (ix2 q k) * x2 (ix2 s k) := by
  unfold k2_pay1
  simp only [shapeCast_self, subf_apply, addf_apply, mulf_apply, broadcast_apply]
  rw [broadcastTo_a1_ab_apply, broadcastTo_1b_ab_apply, cross_apply]
  rfl

/-- The same with each loaded block named as the rows `ob + ·` of the first pair of arrays and the rows (entries)
    `oc + ·` of the second pair. -/
theorem tile_block (x0 : FVec Ideal S1024x128 .bf16) (x1 : FVec Ideal S1024x1 .f32) (x2 : FVec Ideal S1024x128 .bf16)
    (x3 : FVec Ideal S1x1024 .f32) (XN : S4096x128.Idx → EReal) (XS : S4096x1.Idx → EReal) (PN : S16384x128.Idx → EReal)
    (PS : S1x16384.Idx → EReal) (ob oc : ℕ) (hob : ob + 1024 ≤ 4096) (hoc : oc + 1024 ≤ 16384)
    (h0 : ∀ (q : Fin 1024) (k : Fin 128), x0 (ix2 q k) = XN (ix2 ⟨ob + q.val, by omega⟩ k))
    (h1 : ∀ (q : Fin 1024) (u : Fin 1), x1 (ix2 q u) = XS (ix2 ⟨ob + q.val, by omega⟩ u))
    (h2 : ∀ (s : Fin 1024) (k : Fin 128), x2 (ix2 s k) = PN (ix2 ⟨oc + s.val, by omega⟩ k))
    (h3 : ∀ (u : Fin 1) (s : Fin 1024), x3 (ix2 u s) = PS (ix2 u ⟨oc + s.val, by omega⟩))
    (q s : Fin 1024) :
    k2_pay1 (F := Ideal) x0 x2 x1 x3 (ix2 q s)
      = XS (ix2 ⟨ob + q.val, by omega⟩ (0 : Fin 1)) + PS (ix2 (0 : Fin 1) ⟨oc + s.val, by omega⟩)
        - two * ∑ k : Fin 128, XN (ix2 ⟨ob + q.val, by omega⟩ k) * PN (ix2 ⟨oc + s.val, by omega⟩ k) := by
  rw [tile_apply]
  simp only [h0, h1, h2, h3]

/-! ## From tiles to the array -/

variable (V : (c : Dev nD) → (b : Ref sig .tc) → Buf (Elt Ideal) ((c : Thread nD τ).loc b))

/-- The four arrays as the region finds them. -/
abbrev xn (c : Dev nD) : S4096x128.Idx → EReal := V c main_v0_0
abbrev xs (c : Dev nD) : S4096x1.Idx → EReal := V c main_v0_1
abbrev pn (c : Dev nD) : S16384x128.Idx → EReal := V c main_v1_0
abbrev ps (c : Dev nD) : S1x16384.Idx → EReal := V c main_v2

theorem origin : (![0, 0] : Fin 2 → Nat) = fun _ => 0 := funext fun a => by fin_cases a <;> rfl

/-- The five index maps over the grid: point `t` is the tile `(t / 16, t % 16)`. -/
theorem index_maps : ∀ t : Fin cfg2.N,
    win2_0.index t (0 : Fin 2) = t.val / 16 ∧ win2_0.index t (1 : Fin 2) = 0
    ∧ win2_1.index t (0 : Fin 2) = t.val / 16 ∧ win2_1.index t (1 : Fin 2) = 0
    ∧ win2_2.index t (0 : Fin 2) = t.val % 16 ∧ win2_2.index t (1 : Fin 2) = 0
    ∧ win2_3.index t (0 : Fin 2) = 0 ∧ win2_3.index t (1 : Fin 2) = t.val % 16
    ∧ win2_4.index t (0 : Fin 2) = t.val / 16 ∧ win2_4.index t (1 : Fin 2) = t.val % 16 ∧ t.val < 64 :=
  (by decide +kernel : ∀ t : Fin grid2.N, _)

/-- Every tile is some point's. -/
theorem point_of_tile : ∀ (b : Fin 4) (c : Fin 16), ∃ t : Fin cfg2.N, t.val / 16 = b.val ∧ t.val % 16 = c.val :=
  (by decide +kernel : ∀ (b : Fin 4) (c : Fin 16), ∃ t : Fin grid2.N, t.val / 16 = b.val ∧ t.val % 16 = c.val)

theorem block_xn (c : Dev nD) (t : Fin cfg2.N) (ht : t.val / 16 * 1024 + 1024 ≤ 4096) (q : Fin 1024) (k : Fin 128) :
    (iblk2 V c 0 t : FVec Ideal S1024x128 .bf16) (ix2 q k) = xn V c (ix2 ⟨t.val / 16 * 1024 + q.val, by omega⟩ k) := by
  obtain ⟨e00, e01, -⟩ := index_maps t
  show V c main_v0_0 (((cfg2.win 0).blk t).view.emb (ix2 q k)) = _
  refine congrArg (V c main_v0_0) (funext fun a => Fin.ext ?_)
  match a with
  | ⟨0, _⟩ => show win2_0.index t (0 : Fin 2) * 1024 + 1 * q.val = t.val / 16 * 1024 + q.val; rw [e00]; omega
  | ⟨1, _⟩ => show win2_0.index t (1 : Fin 2) * 128 + 1 * k.val = k.val; rw [e01]; omega

theorem block_xs (c : Dev nD) (t : Fin cfg2.N) (ht : t.val / 16 * 1024 + 1024 ≤ 4096) (q : Fin 1024) (u : Fin 1) :
    (iblk2 V c 1 t : FVec Ideal S1024x1 .f32) (ix2 q u) = xs V c (ix2 ⟨t.val / 16 * 1024 + q.val, by omega⟩ u) := by
  obtain ⟨-, -, e10, e11, -⟩ := index_maps t
  show V c main_v0_1 (((cfg2.win 1).blk t).view.emb (ix2 q u)) = _
  refine congrArg (V c main_v0_1) (funext fun a => Fin.ext ?_)
  match a with
  | ⟨0, _⟩ => show win2_1.index t (0 : Fin 2) * 1024 + 1 * q.val = t.val / 16 * 1024 + q.val; rw [e10]; omega
  | ⟨1, _⟩ => show win2_1.index t (1 : Fin 2) * 1 + 1 * u.val = u.val; rw [e11]; omega

theorem block_pn (c : Dev nD) (t : Fin cfg2.N) (ht : t.val % 16 * 1024 + 1024 ≤ 16384) (s : Fin 1024) (k : Fin 128) :
    (iblk2 V c 2 t : FVec Ideal S1024x128 .bf16) (ix2 s k) = pn V c (ix2 ⟨t.val % 16 * 1024 + s.val, by omega⟩ k) := by
  obtain ⟨-, -, -, -, e20, e21, -⟩ := index_maps t
  show V c main_v1_0 (((cfg2.win 2).blk t).view.emb (ix2 s k)) = _
  refine congrArg (V c main_v1_0) (funext fun a => Fin.ext ?_)
  match a with
  | ⟨0, _⟩ => show win2_2.index t (0 : Fin 2) * 1024 + 1 * s.val = t.val % 16 * 1024 + s.val; rw [e20]; omega
  | ⟨1, _⟩ => show win2_2.index t (1 : Fin 2) * 128 + 1 * k.val = k.val; rw [e21]; omega

theorem block_ps (c : Dev nD) (t : Fin cfg2.N) (ht : t.val % 16 * 1024 + 1024 ≤ 16384) (u : Fin 1) (s : Fin 1024) :
    (iblk2 V c 3 t : FVec Ideal S1x1024 .f32) (ix2 u s) = ps V c (ix2 u ⟨t.val % 16 * 1024 + s.val, by omega⟩) := by
  obtain ⟨-, -, -, -, -, -, e30, e31, -⟩ := index_maps t
  show V c main_v2 (((cfg2.win 3).blk t).view.emb (ix2 u s)) = _
  refine congrArg (V c main_v2) (funext fun a => Fin.ext ?_)
  match a with
  | ⟨0, _⟩ => show win2_3.index t (0 : Fin 2) * 1 + 1 * u.val = u.val; rw [e30]; omega
  | ⟨1, _⟩ => show win2_3.index t (1 : Fin 2) * 1024 + 1 * s.val = t.val % 16 * 1024 + s.val; rw [e31]; omega

/-- What point `t` writes back is tile `t` of `combine` of the four arrays. -/
theorem flushed_tile (c : Dev nD) (t : Fin cfg2.N) :
    (dat2 V c).flushed 4 t = ((cfg2.win 4).blk t).view.read (Elt Ideal) (combine (xn V c) (xs V c) (pn V c) (ps V c)) := by
  show (cfg2.win 4).cut (grid2.coords t) ((dat2 V c).after 4 t) = _
  rw [after2_4]
  unfold out2_4
  rw [View.canon_unit_zero origin]
  simp only [View.ld_unit_zero (S := S1024x128) origin, View.ld_unit_zero (S := S1024x1) origin, View.ld_unit_zero (S := S1x1024) origin]
  obtain ⟨e00, e01, e10, e11, e20, e21, e30, e31, e40, e41, hlt⟩ := index_maps t
  funext j
  obtain ⟨q, s, rfl⟩ : ∃ (q s : Fin 1024), j = ix2 q s := ⟨j 0, j 1, eq_ix2 j⟩
  show k2_pay1 (F := Ideal) (iblk2 V c 0 t) (iblk2 V c 2 t) (iblk2 V c 1 t) (iblk2 V c 3 t) (ix2 q s)
    = combine (xn V c) (xs V c) (pn V c) (ps V c) (((cfg2.win 4).blk t).view.emb (ix2 q s))
  refine (tile_block (iblk2 V c 0 t) (iblk2 V c 1 t) (iblk2 V c 2 t) (iblk2 V c 3 t) (xn V c) (xs V c) (pn V c) (ps V c)
    (t.val / 16 * 1024) (t.val % 16 * 1024) (by omega) (by omega)
    (block_xn V c t (by omega)) (block_xs V c t (by omega)) (block_pn V c t (by omega)) (block_ps V c t (by omega)) q s).trans ?_
  refine (combine_of (xn V c) (xs V c) (pn V c) (ps V c) _ _ _ ?_ ?_).symm
  · show win2_4.index t (0 : Fin 2) * 1024 + 1 * q.val = t.val / 16 * 1024 + q.val; rw [e40]; omega
  · show win2_4.index t (1 : Fin 2) * 1024 + 1 * s.val = t.val % 16 * 1024 + s.val; rw [e41]; omega

/-- An index of the result is in point `t`'s tile iff each coordinate is in the tile's range. -/
theorem mem_tile (t : Fin cfg2.N) (i : S4096x16384.Idx) :
    i ∈ ((cfg2.win 4).blk t).view.set ↔ ∀ a : Fin 2, win2_4.index t a * S1024x1024.size a ≤ (i a).val ∧ (i a).val < win2_4.index t a * S1024x1024.size a + S1024x1024.size a := by
  show i ∈ ((View.whole main_v3).slice (win2_4.rect t)).set ↔ _
  rw [View.set_slice_whole, Rect.mem_set_unit]
  exact Iff.rfl

/-- Entry `(b, c)` lies in the tile `(b / 1024, c / 1024)`. -/
theorem cover_tile (i : S4096x16384.Idx) :
    ∃ t : Fin cfg2.N, (cfg2.win 4).flush t = true ∧ i ∈ ((cfg2.win 4).blk t).view.set := by
  have hi0 : (i 0).val < 4096 := (i 0).isLt
  have hi1 : (i 1).val < 16384 := (i 1).isLt
  obtain ⟨t, ht0, ht1⟩ := point_of_tile ⟨(i 0).val / 1024, by omega⟩ ⟨(i 1).val / 1024, by omega⟩
  have ht0' : t.val / 16 = (i 0).val / 1024 := ht0
  have ht1' : t.val % 16 = (i 1).val / 1024 := ht1
  obtain ⟨e00, e01, e10, e11, e20, e21, e30, e31, e40, e41, hlt⟩ := index_maps t
  refine ⟨t, flush2_4 t, ?_⟩
  rw [mem_tile]
  intro a
  match a with
  | ⟨0, _⟩ => show win2_4.index t (0 : Fin 2) * 1024 ≤ (i 0).val ∧ (i 0).val < win2_4.index t (0 : Fin 2) * 1024 + 1024; rw [e40]; omega
  | ⟨1, _⟩ => show win2_4.index t (1 : Fin 2) * 1024 ≤ (i 1).val ∧ (i 1).val < win2_4.index t (1 : Fin 2) * 1024 + 1024; rw [e41]; omega

/-- After the region the result array is `combine` of the four arrays the region found. -/
theorem final_tile (c : Dev nD) : (dat2 V c).arrAt 4 cfg2.N = combine (xn V c) (xs V c) (pn V c) (ps V c) :=
  (dat2 V c).arrAt_eq_of_cover 4 (combine (xn V c) (xs V c) (pn V c) (ps V c)) (fun t _ => flushed_tile V c t) cover_tile

end Cert.CosDist.Tile

end
-- ==== Proof.Chain.lean ====
/-
  The three regions in sequence. The first region finds the first argument as launched and leaves the scaled
  matrix and its column of norms; the second finds the second argument as launched (the first region does not
  write it) and leaves the same for it; the reshape between the regions turns the second column of norms into a
  row and writes nothing else; so the third region finds exactly the four arrays `combine` takes, and the result
  array ends at the squared distance of the scaled rows.
-/
import proofs.«137773_j75359496176232_1_alg».proof.Proof.Norm0
import proofs.«137773_j75359496176232_1_alg».proof.Proof.Norm1
import proofs.«137773_j75359496176232_1_alg».proof.Proof.Tile
import proofs.«137773_j75359496176232_1_alg».proof.Proof.KernelRun
import Idealize.ShloMosaic.Lib.StableHlo.Run

set_option maxRecDepth 16384

noncomputable section

namespace Cert.CosDist.Chain

open Cert.KernelIdeal Cert.KernelIdeal.Gen Cert.CosDist
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

/-- The two arguments as launched. -/
abbrev x (c : Dev nD) : S4096x128.Idx → EReal := m ((c : Thread nD τ).loc main_arg0)
abbrev p (c : Dev nD) : S16384x128.Idx → EReal := m ((c : Thread nD τ).loc main_arg1)

/-- The second region finds the second argument as launched: the first region does not write it. -/
theorem second_arg_at_entry (c : Dev nD) : Norm1.arg (V1 m ρ) c = p m c :=
  W1_of_ne m ρ c main_arg1 (by decide)

/-- The scaled first matrix reaches the third region: written by the first region, kept by the second and by the
    reshape. -/
theorem xn_at_entry (c : Dev nD) : Tile.xn (V3 m ρ) c = unit3Arr (x m c) := by
  have h3 : W3 m ρ c (Proc.devRef .tc main_v0_0) = W2 m ρ c (Proc.devRef .tc main_v0_0) := by
    show StableHlo.after hostOps2 (W2 m ρ c) (Proc.devRef .tc main_v0_0) = _
    after_results
  have h2 : W2 m ρ c (Proc.devRef .tc main_v0_0) = W1 m ρ c (Proc.devRef .tc main_v0_0) := W2_of_ne m ρ c main_v0_0 (by decide)
  have h1 : W1 m ρ c (Proc.devRef .tc main_v0_0) = (dat0 (V0 m ρ) c).arrAt 1 cfg0.N := W1_arr m ρ c 1
  show W3 m ρ c (Proc.devRef .tc main_v0_0) = _
  rw [h3, h2, h1, Norm0.final_scaled]

/-- Its column of norms likewise. -/
theorem xs_at_entry (c : Dev nD) : Tile.xs (V3 m ρ) c = unit3SqCol (x m c) := by
  have h3 : W3 m ρ c (Proc.devRef .tc main_v0_1) = W2 m ρ c (Proc.devRef .tc main_v0_1) := by
    show StableHlo.after hostOps2 (W2 m ρ c) (Proc.devRef .tc main_v0_1) = _
    after_results
  have h2 : W2 m ρ c (Proc.devRef .tc main_v0_1) = W1 m ρ c (Proc.devRef .tc main_v0_1) := W2_of_ne m ρ c main_v0_1 (by decide)
  have h1 : W1 m ρ c (Proc.devRef .tc main_v0_1) = (dat0 (V0 m ρ) c).arrAt 2 cfg0.N := W1_arr m ρ c 2
  show W3 m ρ c (Proc.devRef .tc main_v0_1) = _
  rw [h3, h2, h1, Norm0.final_norms]

/-- The scaled second matrix: written by the second region, kept by the reshape. -/
theorem pn_at_entry (c : Dev nD) : Tile.pn (V3 m ρ) c = unit3Arr (p m c) := by
  have h3 : W3 m ρ c (Proc.devRef .tc main_v1_0) = W2 m ρ c (Proc.devRef .tc main_v1_0) := by
    show StableHlo.after hostOps2 (W2 m ρ c) (Proc.devRef .tc main_v1_0) = _
    after_results
  have h2 : W2 m ρ c (Proc.devRef .tc main_v1_0) = (dat1 (V1 m ρ) c).arrAt 1 cfg1.N := W2_arr m ρ c 1
  show W3 m ρ c (Proc.devRef .tc main_v1_0) = _
  rw [h3, h2, Norm1.final_scaled, second_arg_at_entry]

/-- The row of the second matrix's norms: the second region's column, reshaped. -/
theorem ps_at_entry (c : Dev nD) : Tile.ps (V3 m ρ) c = unit3SqRow (p m c) := by
  have h3 : (W3 m ρ c (Proc.devRef .tc main_v2) : S1x16384.Idx → EReal)
      = shapeCast S1x16384 (W2 m ρ c (Proc.devRef .tc main_v1_1) : S16384x1.Idx → EReal) shapeCasts_S16384x1_S1x16384 := by
    show StableHlo.after hostOps2 (W2 m ρ c) (Proc.devRef .tc main_v2) = _
    after_results
    rfl
  have h2 : W2 m ρ c (Proc.devRef .tc main_v1_1) = (dat1 (V1 m ρ) c).arrAt 2 cfg1.N := W2_arr m ρ c 2
  show (W3 m ρ c (Proc.devRef .tc main_v2) : S1x16384.Idx → EReal) = _
  rw [h3, h2, Norm1.final_norms, second_arg_at_entry]
  funext i
  obtain ⟨u, s, rfl⟩ : ∃ (u : Fin 1) (s : Fin 16384), i = ix2 u s := ⟨i 0, i 1, eq_ix2 i⟩
  rw [shapeCast_a1_1a_apply]
  rfl

/-- The result array after the third region is the squared distance of the scaled rows. -/
theorem result_eq (c : Dev nD) : W4 m ρ c (Proc.devRef .tc main_v3) = dist (x m c) (p m c) := by
  have h4 : W4 m ρ c (Proc.devRef .tc main_v3) = (dat2 (V3 m ρ) c).arrAt 4 cfg2.N := W4_arr m ρ c 4
  rw [h4, Tile.final_tile, xn_at_entry, xs_at_entry, pn_at_entry, ps_at_entry, combine_unit3]

/-- The idealized kernel's run: every weakly fair execution terminates, nothing faulting, the result at the squared
    distance of the scaled rows of the arguments as launched, the arguments unchanged. -/
theorem run : θ_run defs (onTc (τ := τ) (main (F := Ideal))) ⟨m, fun _ => 0, ρ⟩ (fun r => ∀ c : Dev nD,
      r.2.mem ((c.tc : Thread nD τ).loc main_v3) = dist (x m c) (p m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (Cert.KernelIdeal.Named.run_named m ρ)

end Cert.CosDist.Chain

end
-- ==== Proof.lean ====
/-
  The certificate: the kernel's three regions — each argument's rows scaled to length three with their norms, then
  the tiled `‖x‖² + ‖p‖² − 2·x·p` — against the reference's one host program.

  At the extended reals both programs compute, entry `(b, c)`, the squared distance
  `unit3Sq x b + unit3Sq p c − 2 · Σ_k unit3 x b k · unit3 p c k` of row `b` of the first argument and row `c` of the
  second, each scaled to length three (`Cert.CosDist.dist`): the same operations in the same order, the kernel's
  on blocks that tile the arrays, its change of float format the identity, its row sums and its product into a zero
  accumulator the reference's sums. No law of arithmetic beyond `0 + s = s` joins the two sides, so the precondition
  is not opened. The idealization rewrote no operation: `preserves` asks nothing.
-/
import proofs.«137773_j75359496176232_1_alg».proof.Defs
import proofs.«137773_j75359496176232_1_alg».proof.Proof.Gen.Kernel
import proofs.«137773_j75359496176232_1_alg».proof.Proof.Gen.Kernel.Skeleton
import proofs.«137773_j75359496176232_1_alg».proof.Proof.Gen.Kernel.Launch
import proofs.«137773_j75359496176232_1_alg».proof.Proof.Gen.Kernel.Points
import proofs.«137773_j75359496176232_1_alg».proof.Proof.Gen.Kernel.Frame
import proofs.«137773_j75359496176232_1_alg».proof.Proof.Gen.KernelIdeal
import proofs.«137773_j75359496176232_1_alg».proof.Proof.Gen.KernelIdeal.Skeleton
import proofs.«137773_j75359496176232_1_alg».proof.Proof.Gen.KernelIdeal.Launch
import proofs.«137773_j75359496176232_1_alg».proof.Proof.Gen.KernelIdeal.Points
import proofs.«137773_j75359496176232_1_alg».proof.Proof.Gen.KernelIdeal.Frame
import proofs.«137773_j75359496176232_1_alg».proof.Proof.Gen.ReferenceIdeal
import proofs.«137773_j75359496176232_1_alg».proof.Proof.Gen.ReferenceIdeal.Run
import proofs.«137773_j75359496176232_1_alg».proof.Proof.Gen.ReferenceIdeal.Read
import proofs.«137773_j75359496176232_1_alg».proof.Proof.Gen.Pre_finite_inputs
import proofs.«137773_j75359496176232_1_alg».proof.Proof.RefIsSpec
import proofs.«137773_j75359496176232_1_alg».proof.Proof.Chain
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- So does its reading at the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a host program: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with the result at the squared distance of the scaled rows of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.CosDist.dist (Cert.CosDist.Chain.x m c) (Cert.CosDist.Chain.p m c), Cert.CosDist.Chain.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.CosDist.Ref.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
